-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S8192x32 : Shape := ⟨2, ![8192, 32]⟩
abbrev S4096x8192 : Shape := ⟨2, ![4096, 8192]⟩
abbrev S4096 : Shape := ⟨1, ![4096]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  main_v18

def fn {F : FTy → Type} [FloatOps F] (main_arg0 : FVec F S4096x32 .f32) (main_arg1 : FVec F S8192x32 .f32) (main_arg2 : IVec S4096x8192 32) (main_arg3 : FVec F S4096x8192 .f32) (main_arg4 : FVec F S4096x8192 .f32) (main_arg5 : IVec S4096 32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S4096x8192 .f32 := Host.absf main_arg3
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S4096x8192 .f32 := Host.absf main_arg4
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_v13 main_v16
-- ==== Kernel.lean ====
abbrev S4096x32 : Shape := ⟨2, ![4096, 32]⟩
abbrev S8192x32 : Shape := ⟨2, ![8192, 32]⟩
abbrev S4096x8192 : Shape := ⟨2, ![4096, 8192]⟩
abbrev S4096 : Shape := ⟨1, ![4096]⟩
abbrev S1x1 : Shape := ⟨2, ![1, 1]⟩
abbrev S512x32 : Shape := ⟨2, ![512, 32]⟩
abbrev S1024x32 : Shape := ⟨2, ![1024, 32]⟩
abbrev S512x1024 : Shape := ⟨2, ![512, 1024]⟩
abbrev S32x1024 : Shape := ⟨2, ![32, 1024]⟩
abbrev S512 : Shape := ⟨1, ![512]⟩
abbrev S512x1 : Shape := ⟨2, ![512, 1]⟩
abbrev S1 : Shape := ⟨1, ![1]⟩
abbrev S_ : Shape := ⟨0, ![]⟩
abbrev S128x32 : Shape := ⟨2, ![128, 32]⟩
abbrev S4096x1 : Shape := ⟨2, ![4096, 1]⟩
abbrev S128 : Shape := ⟨1, ![128]⟩

abbrev nBuf : Space → Nat
  | .hbm => 62
  | .vmem => 11
  | .smem => 0
  | _ => 0

abbrev bufTy : (tb : Table) → Fin (tcTables nBuf tb) → BufTy
  | .hbm, ⟨0, _⟩ => ⟨S4096x32, .f32⟩
  | .hbm, ⟨1, _⟩ => ⟨S8192x32, .f32⟩
  | .hbm, ⟨2, _⟩ => ⟨S4096x8192, .i32⟩
  | .hbm, ⟨3, _⟩ => ⟨S4096x8192, .f32⟩
  | .hbm, ⟨4, _⟩ => ⟨S4096x8192, .f32⟩
  | .hbm, ⟨5, _⟩ => ⟨S4096, .i32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S128x32, .f32⟩
  | .hbm, ⟨10, _⟩ => ⟨S4096x1, .i32⟩
  | .hbm, ⟨11, _⟩ => ⟨S128x32, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S128, .f32⟩
  | .hbm, ⟨16, _⟩ => ⟨S4096x1, .i32⟩
  | .hbm, ⟨17, _⟩ => ⟨S128, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x32, .f32⟩
  | .hbm, ⟨36, _⟩ => ⟨S4096x32, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S_, .f32⟩
  | .hbm, ⟨49, _⟩ => ⟨S4096, .f32⟩
  | .hbm, ⟨50, _⟩ => ⟨S4096, .i1⟩
  | .hbm, ⟨51, _⟩ => ⟨S4096x1, .i1⟩
  | .hbm, ⟨52, _⟩ => ⟨S_, .f32⟩
  | .hbm, ⟨53, _⟩ => ⟨S_, .f32⟩
  | .hbm, ⟨54, _⟩ => ⟨S4096x32, .i1⟩
  | .hbm, ⟨55, _⟩ => ⟨S4096x32, .f32⟩
  | .hbm, ⟨56, _⟩ => ⟨S4096x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S1024x32, .f32⟩
  | .local _ .vmem, ⟨3, _⟩ => ⟨S1024x32, .f32⟩
  | .local _ .vmem, ⟨4, _⟩ => ⟨S512x1024, .i32⟩
  | .local _ .vmem, ⟨5, _⟩ => ⟨S512x1024, .i32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S512x32_S512x32_0_0 : ∀ a, (![0, 0] : Fin 2 → Nat) a + S512x32.size a ≤ S512x32.size a
  h_S512x32 : 0 < S512x32.numel
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  transposes_S1024x32_p1_0_S32x1024 : S1024x32.Transposes [1, 0] S32x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  bcast_S_S128x32 : S_.BroadcastsInDim S128x32 (![] : Fin 0 → Fin S128x32.rank)
  bcast_S4096_S4096x1_0 : S4096.BroadcastsInDim S4096x1 (![0] : Fin 1 → Fin S4096x1.rank)
  bcast_S_S4096 : S_.BroadcastsInDim S4096 (![] : Fin 0 → Fin S4096.rank)
  bcast_S_S128 : S_.BroadcastsInDim S128 (![] : Fin 0 → Fin S128.rank)
  bcast_S4096x1_S4096x32_0_1 : S4096x1.BroadcastsInDim S4096x32 (![0, 1] : Fin 2 → Fin S4096x32.rank)
  bcast_S_S4096x32 : S_.BroadcastsInDim S4096x32 (![] : Fin 0 → Fin S4096x32.rank)
  reducesTo_S4096x32_S_d0_1 : S4096x32.ReducesTo [0, 1] S_
  h_S_ : 0 < S_.numel
  dot_S512x32_S32x1024_S512x1024_1_0_0_1_n_n_wf : DotDims.WF S512x32 S32x1024 S512x1024 [1] [0] [0] [1] [] []
  scatter_S128x32_S4096x1_S4096x32_1_0_0_1_wf : ScatterDims.WF S128x32 S4096x1 S4096x32 [1] [0] [0] 1
  scatter_S128_S4096x1_S4096_n_0_0_1_wf : ScatterDims.WF S128 S4096x1 S4096 [] [0] [0] 1
  gather_S128_S4096x1_S4096_n_0_n_n_0_1_1_wf : GatherDims.WF S128 S4096x1 S4096 [] [0] [] [0] [] 1 ![1]
  gather_S128x32_S4096x1_S4096x32_1_0_n_n_0_1_132_wf : GatherDims.WF S128x32 S4096x1 S4096x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S4096x32.size a
  hwx0_0 : ∀ i : grid0.Coords, EltTy.bits .f32 = 32 ∨ (Rect.block (s := S4096x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S8192x32.size a
  hwx0_1 : ∀ i : grid0.Coords, EltTy.bits .f32 = 32 ∨ (Rect.block (s := S8192x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x8192.size a
  hwx0_2 : ∀ i : grid0.Coords, EltTy.bits .i32 = 32 ∨ (Rect.block (s := S4096x8192) S512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S512x32_S32x1024_S512x1024_1_0_0_1_n_n : DotDims S512x32 S32x1024 S512x1024 where
  lhsContracting := [1]
  rhsContracting := [0]
  lhsNonContracting := [0]
  rhsNonContracting := [1]
  lhsBatch := []
  rhsBatch := []
  wf := dot_S512x32_S32x1024_S512x1024_1_0_0_1_n_n_wf
def scatter_S128x32_S4096x1_S4096x32_1_0_0_1 : ScatterDims S128x32 S4096x1 S4096x32 where
  updateWindowDims := [1]
  insertedWindowDims := [0]
  scatterDimsToOperandDims := [0]
  indexVectorDim := 1
  wf := scatter_S128x32_S4096x1_S4096x32_1_0_0_1_wf
def scatter_S128_S4096x1_S4096_n_0_0_1 : ScatterDims S128 S4096x1 S4096 where
  updateWindowDims := []
  insertedWindowDims := [0]
  scatterDimsToOperandDims := [0]
  indexVectorDim := 1
  wf := scatter_S128_S4096x1_S4096_n_0_0_1_wf
def gather_S128_S4096x1_S4096_n_0_n_n_0_1_1 : GatherDims S128 S4096x1 S4096 where
  offsetDims := []
  collapsedSliceDims := [0]
  operandBatchingDims := []
  startIndicesBatchingDims := []
  startIndexMap := [0]
  indexVectorDim := 1
  sliceSizes := ![1]
  wf := gather_S128_S4096x1_S4096_n_0_n_n_0_1_1_wf
def gather_S128x32_S4096x1_S4096x32_1_0_n_n_0_1_132 : GatherDims S128x32 S4096x1 S4096x32 where
  offsetDims := [1]
  collapsedSliceDims := [0]
  operandBatchingDims := []
  startIndicesBatchingDims := []
  startIndexMap := [0]
  indexVectorDim := 1
  sliceSizes := ![1, 32]
  wf := gather_S128x32_S4096x1_S4096x32_1_0_n_n_0_1_132_wf

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x32 : Shape := ⟨2, ![4096, 32]⟩
abbrev S8192x32 : Shape := ⟨2, ![8192, 32]⟩
abbrev S4096x8192 : Shape := ⟨2, ![4096, 8192]⟩
abbrev S4096 : Shape := ⟨1, ![4096]⟩
abbrev S32x8192 : Shape := ⟨2, ![32, 8192]⟩
abbrev S_ : Shape := ⟨0, ![]⟩
abbrev S128x32 : Shape := ⟨2, ![128, 32]⟩
abbrev S4096x1 : Shape := ⟨2, ![4096, 1]⟩
abbrev S128 : Shape := ⟨1, ![128]⟩

abbrev nBuf : Space → Nat
  | .hbm => 69
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S8192x32, .f32⟩
  | .hbm, ⟨2, _⟩ => ⟨S4096x8192, .i32⟩
  | .hbm, ⟨3, _⟩ => ⟨S4096x8192, .f32⟩
  | .hbm, ⟨4, _⟩ => ⟨S4096x8192, .f32⟩
  | .hbm, ⟨5, _⟩ => ⟨S4096, .i32⟩
  | .hbm, ⟨6, _⟩ => ⟨S32x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128x32, .f32⟩
  | .hbm, ⟨17, _⟩ => ⟨S4096x1, .i32⟩
  | .hbm, ⟨18, _⟩ => ⟨S128x32, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S128, .f32⟩
  | .hbm, ⟨23, _⟩ => ⟨S4096x1, .i32⟩
  | .hbm, ⟨24, _⟩ => ⟨S128, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x32, .f32⟩
  | .hbm, ⟨43, _⟩ => ⟨S4096x32, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S4096, .f32⟩
  | .hbm, ⟨57, _⟩ => ⟨S4096, .i1⟩
  | .hbm, ⟨58, _⟩ => ⟨S4096x1, .i1⟩
  | .hbm, ⟨59, _⟩ => ⟨S_, .f32⟩
  | .hbm, ⟨60, _⟩ => ⟨S_, .f32⟩
  | .hbm, ⟨61, _⟩ => ⟨S4096x32, .i1⟩
  | .hbm, ⟨62, _⟩ => ⟨S4096x32, .f32⟩
  | .hbm, ⟨63, _⟩ => ⟨S4096x32, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  transposes_S8192x32_S32x8192_1_0 : S8192x32.Transposes [1, 0] S32x8192
  reducesTo_S4096x8192_S_d0_1 : S4096x8192.ReducesTo [0, 1] S_
  h_S_ : 0 < S_.numel
  bcast_S_S128x32 : S_.BroadcastsInDim S128x32 (![] : Fin 0 → Fin S128x32.rank)
  bcast_S4096_S4096x1_0 : S4096.BroadcastsInDim S4096x1 (![0] : Fin 1 → Fin S4096x1.rank)
  bcast_S_S4096 : S_.BroadcastsInDim S4096 (![] : Fin 0 → Fin S4096.rank)
  bcast_S_S128 : S_.BroadcastsInDim S128 (![] : Fin 0 → Fin S128.rank)
  bcast_S4096x1_S4096x32_0_1 : S4096x1.BroadcastsInDim S4096x32 (![0, 1] : Fin 2 → Fin S4096x32.rank)
  bcast_S_S4096x32 : S_.BroadcastsInDim S4096x32 (![] : Fin 0 → Fin S4096x32.rank)
  reducesTo_S4096x32_S_d0_1 : S4096x32.ReducesTo [0, 1] S_
  dot_S4096x32_S32x8192_S4096x8192_1_0_0_1_n_n_wf : DotDims.WF S4096x32 S32x8192 S4096x8192 [1] [0] [0] [1] [] []
  scatter_S128x32_S4096x1_S4096x32_1_0_0_1_wf : ScatterDims.WF S128x32 S4096x1 S4096x32 [1] [0] [0] 1
  scatter_S128_S4096x1_S4096_n_0_0_1_wf : ScatterDims.WF S128 S4096x1 S4096 [] [0] [0] 1
  gather_S128_S4096x1_S4096_n_0_n_n_0_1_1_wf : GatherDims.WF S128 S4096x1 S4096 [] [0] [] [0] [] 1 ![1]
  gather_S128x32_S4096x1_S4096x32_1_0_n_n_0_1_132_wf : GatherDims.WF S128x32 S4096x1 S4096x32 [1] [0] [] [0] [] 1 ![1, 32]

variable [Facts₀]

def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def scatter_S128x32_S4096x1_S4096x32_1_0_0_1 : ScatterDims S128x32 S4096x1 S4096x32 where
  updateWindowDims := [1]
  insertedWindowDims := [0]
  scatterDimsToOperandDims := [0]
  indexVectorDim := 1
  wf := scatter_S128x32_S4096x1_S4096x32_1_0_0_1_wf
def scatter_S128_S4096x1_S4096_n_0_0_1 : ScatterDims S128 S4096x1 S4096 where
  updateWindowDims := []
  insertedWindowDims := [0]
  scatterDimsToOperandDims := [0]
  indexVectorDim := 1
  wf := scatter_S128_S4096x1_S4096_n_0_0_1_wf
def gather_S128_S4096x1_S4096_n_0_n_n_0_1_1 : GatherDims S128 S4096x1 S4096 where
  offsetDims := []
  collapsedSliceDims := [0]
  operandBatchingDims := []
  startIndicesBatchingDims := []
  startIndexMap := [0]
  indexVectorDim := 1
  sliceSizes := ![1]
  wf := gather_S128_S4096x1_S4096_n_0_n_n_0_1_1_wf
def gather_S128x32_S4096x1_S4096x32_1_0_n_n_0_1_132 : GatherDims S128x32 S4096x1 S4096x32 where
  offsetDims := [1]
  collapsedSliceDims := [0]
  operandBatchingDims := []
  startIndicesBatchingDims := []
  startIndexMap := [0]
  indexVectorDim := 1
  sliceSizes := ![1, 32]
  wf := gather_S128x32_S4096x1_S4096x32_1_0_n_n_0_1_132_wf

class Facts : Prop extends Facts₀ where

variable [Facts]
-- ==== Proof.LibPlainDotSum.lean ====
/-
  A matrix product read at an entry, as the textbook sum.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is
  `∑ q : Fin K, A (i, q) * B (q, j)`. Stated for ANY dimension-number record with those lists and for operands of any
  two float formats, at the extended reals: for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibPlainDotSum

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)`: at contraction position `k` with coordinate `q` the
    left operand is read at `(i, q)` and the right at `(q, j)`, and the positions correspond one to one to the
    coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)

/-- A block product into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact plain_sum d hlc hrc hln hrn hlb hrb l r i j

/-- The host's product, read at `(i, j)`, is that sum. -/
theorem hostDot_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    Host.dotGeneral d prec l r (ix2 i j) = ∑ q : Fin K, l (ix2 i q) * r (ix2 q j) := by
  simp only [Host.dotGeneral]
  rw [Ideal.dotGeneral_apply]
  exact plain_sum d hlc hrc hln hrn hlb hrb l r i j

end Cert.LibPlainDotSum

end
-- ==== Proof.LibRowSum.lean ====
/-
  A reduction of a matrix along its second axis, read at a row.

  A `vector.multi_reduction <add>` of an `[a, b]` array over axis 1 into an `[a]` array holds, at `r`, the sum of row
  `r`: the index the reduction inserts at position `k` of the reduced axis under the kept index `r` is `(r, k)`. Stated
  with the coordinate constructors `ix1` / `ix2`, at any extents, over the extended reals.
-/
import Idealize.ShloMosaic.PureOps.Ideal.Laws
import Idealize.ShloMosaic.Lib.ValueIdx

noncomputable section

open scoped BigOperators

namespace Cert.Lib.RowSum

open Idealize.ShloMosaic Idealize.ShloMosaic.ValueIdx

/-- The sum over the second axis, at row `r`, is `∑ k, src (r, k)`. -/
theorem multiReduction_add_row_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  refine Finset.sum_congr rfl fun k _ => congrArg src (funext fun d => Fin.ext ?_)
  match d with
  | ⟨0, _⟩ => rfl
  | ⟨1, _⟩ => rfl

end Cert.Lib.RowSum

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibTiles2D.lean ====
/-
  A total over a matrix cut into a grid of rectangular tiles, in any commutative additive monoid (the extended
  reals among them: only commutativity and associativity of `+` are used, so no finiteness is asked).

  An `N × K` matrix with `N = A·B` rows and `K = C·D` columns is covered by `A·C` tiles of `B × D` entries. The
  tiles are numbered row-major: tile `t` sits in tile-row `t / C` and tile-column `t % C`, so its entry `(r, l)` is
  entry `(B·(t / C) + r, D·(t % C) + l)` of the matrix. The total over the matrix is the sum over the tiles of each
  tile's total.
-/
import Idealize.ShloMosaic.Lib.ValueIdx
import Mathlib.Algebra.BigOperators.Fin

open Idealize.ShloMosaic Idealize.ShloMosaic.ValueIdx

namespace Cert.LibTiles2D

variable {M : Type} [AddCommMonoid M]

/-- Position `B·a + r` of band `a < A`, offset `r < B`, lies below `A·B`. -/
theorem band_lt {A B a r : ℕ} (ha : a < A) (hr : r < B) : B * a + r < A * B :=
  calc B * a + r < B * a + B := Nat.add_lt_add_left hr _
    _ = B * (a + 1) := (Nat.mul_succ B a).symm
    _ ≤ B * A := Nat.mul_le_mul_left B ha
    _ = A * B := Nat.mul_comm B A

/-- The quotient of a tile number by the tiles per row is a tile-row. -/
theorem div_lt {A C : ℕ} (t : Fin (A * C)) : t.val / C < A :=
  Nat.div_lt_of_lt_mul (lt_of_lt_of_eq t.isLt (Nat.mul_comm A C))

/-- The remainder of a tile number by the tiles per row is a tile-column. -/
theorem mod_lt {A C : ℕ} (t : Fin (A * C)) : t.val % C < C :=
  Nat.mod_lt _ (Nat.pos_of_ne_zero fun h => by subst h; exact absurd t.isLt (by simp))

/-- A sum over `Fin (A·B)` is the sum over the `A` bands of `B` consecutive positions. -/
theorem sum_bands (A B : ℕ) (f : Fin (A * B) → M) :
    ∑ p, f p = ∑ a : Fin A, ∑ r : Fin B, f ⟨B * a.val + r.val, band_lt a.isLt r.isLt⟩ := by
  rw [← Equiv.sum_comp finProdFinEquiv, Fintype.sum_prod_type]
  refine Finset.sum_congr rfl fun a _ => Finset.sum_congr rfl fun r _ => congrArg f (Fin.ext ?_)
  show (finProdFinEquiv (a, r)).val = B * a.val + r.val
  simp only [finProdFinEquiv_apply_val]
  exact Nat.add_comm _ _

/-- A double sum over tile-rows and tile-columns is the sum over the tiles numbered row-major. -/
theorem sum_grid (A C : ℕ) (p : ℕ → ℕ → M) :
    ∑ a : Fin A, ∑ c : Fin C, p a.val c.val = ∑ t : Fin (A * C), p (t.val / C) (t.val % C) := by
  rw [← Equiv.sum_comp finProdFinEquiv (fun t : Fin (A * C) => p (t.val / C) (t.val % C)), Fintype.sum_prod_type]
  refine Finset.sum_congr rfl fun a _ => Finset.sum_congr rfl fun c _ => ?_
  have hC : 0 < C := Nat.pos_of_ne_zero fun h => by subst h; exact c.elim0
  simp only [finProdFinEquiv_apply_val]
  rw [Nat.add_mul_div_left _ _ hC, Nat.div_eq_of_lt c.isLt, Nat.zero_add, Nat.add_mul_mod_self_left,
    Nat.mod_eq_of_lt c.isLt]

/-- THE TILING: the total over an `N × K` matrix, `N = A·B`, `K = C·D`, is the sum over the `A·C` tiles (row-major)
    of the totals of the tiles' `B × D` entries. -/
theorem sum_tiles {N K : ℕ} (A B C D : ℕ) (hN : N = A * B) (hK : K = C * D) (g : (⟨2, ![N, K]⟩ : Shape).Idx → M) :
    ∑ i, g i = ∑ t : Fin (A * C), ∑ r : Fin B, ∑ l : Fin D,
      g (ix2 ⟨B * (t.val / C) + r.val, hN ▸ band_lt (div_lt t) r.isLt⟩
             ⟨D * (t.val % C) + l.val, hK ▸ band_lt (mod_lt t) l.isLt⟩) := by
  subst hN hK
  rw [sum_idx2, sum_bands A B]
  have h1 : ∀ a : Fin A, ∀ r : Fin B,
      ∑ q : Fin (C * D), g (ix2 ⟨B * a.val + r.val, band_lt a.isLt r.isLt⟩ q)
        = ∑ c : Fin C, ∑ l : Fin D, g (ix2 ⟨B * a.val + r.val, band_lt a.isLt r.isLt⟩
            ⟨D * c.val + l.val, band_lt c.isLt l.isLt⟩) := fun a r => sum_bands C D _
  simp only [h1]
  have h2 : ∀ a : Fin A,
      ∑ r : Fin B, ∑ c : Fin C, ∑ l : Fin D, g (ix2 ⟨B * a.val + r.val, band_lt a.isLt r.isLt⟩
            ⟨D * c.val + l.val, band_lt c.isLt l.isLt⟩)
        = ∑ c : Fin C, ∑ r : Fin B, ∑ l : Fin D, g (ix2 ⟨B * a.val + r.val, band_lt a.isLt r.isLt⟩
            ⟨D * c.val + l.val, band_lt c.isLt l.isLt⟩) := fun a => Finset.sum_comm
  simp only [h2]
  -- the summand as a function of the tile-row and tile-column NUMBERS, total by wrapping out-of-range numbers
  let p : ℕ → ℕ → M := fun a c => ∑ r : Fin B, ∑ l : Fin D,
    if h : a < A ∧ c < C then g (ix2 ⟨B * a + r.val, band_lt h.1 r.isLt⟩ ⟨D * c + l.val, band_lt h.2 l.isLt⟩) else 0
  have hp : ∀ (a c : ℕ) (ha : a < A) (hc : c < C), p a c = ∑ r : Fin B, ∑ l : Fin D,
      g (ix2 ⟨B * a + r.val, band_lt ha r.isLt⟩ ⟨D * c + l.val, band_lt hc l.isLt⟩) := fun a c ha hc =>
    Finset.sum_congr rfl fun r _ => Finset.sum_congr rfl fun l _ => dif_pos ⟨ha, hc⟩
  calc ∑ a : Fin A, ∑ c : Fin C, ∑ r : Fin B, ∑ l : Fin D, g (ix2 ⟨B * a.val + r.val, band_lt a.isLt r.isLt⟩
            ⟨D * c.val + l.val, band_lt c.isLt l.isLt⟩)
      = ∑ a : Fin A, ∑ c : Fin C, p a.val c.val :=
        Finset.sum_congr rfl fun a _ => Finset.sum_congr rfl fun c _ => (hp a.val c.val a.isLt c.isLt).symm
    _ = ∑ t : Fin (A * C), p (t.val / C) (t.val % C) := sum_grid A C p
    _ = _ := Finset.sum_congr rfl fun t _ => hp _ _ (div_lt t) (mod_lt t)

end Cert.LibTiles2D
-- ==== Proof.LibSumBands.lean ====
/-
  Summation algebra used by the value proof, over an arbitrary commutative additive monoid (the extended reals
  in the application): a sum over a reshaped array is the sum over the array; a sum over the rows of an
  (A·B) × C array splits into A consecutive bands of B rows; and a left-nested running sum over the points
  0, 1, …, n of a finite range is the sum over those points.
-/
import Idealize.ShloMosaic.Lib.ValueIdx
import Idealize.ShloMosaic.Lib.Pipeline.Value

open Idealize.ShloMosaic Idealize.ShloMosaic.ValueIdx

namespace Cert.SumBlocks

variable {M : Type} [AddCommMonoid M]

/-- A reshape only re-indexes (same row-major position), so the total over the reshaped array is the total
    over the array. -/
theorem sum_shapeCast {s t : Shape} (x : s.Idx → M) (h : s.ShapeCasts t) :
    ∑ j : t.Idx, shapeCast t x h j = ∑ k : s.Idx, x k := by
  unfold shapeCast
  exact Equiv.sum_comp (Shape.reshapeEquiv h) x

/-- Row `B·t + r` of an array with `A·B` rows, for `t < A` and `r < B`. -/
theorem band_row_lt {A B t r : ℕ} (ht : t < A) (hr : r < B) : B * t + r < A * B :=
  calc B * t + r < B * t + B := Nat.add_lt_add_left hr _
    _ = B * (t + 1) := (Nat.mul_succ B t).symm
    _ ≤ B * A := Nat.mul_le_mul_left B ht
    _ = A * B := Nat.mul_comm B A

/-- The total over an `N × C` array with `N = A·B` rows is the sum, over the `A` bands of `B` consecutive
    rows, of each band's total: row `p` is row `r` of band `t` exactly when `p = B·t + r`. -/
theorem sum_row_bands {N C : ℕ} (A B : ℕ) (hN : N = A * B) (g : (⟨2, ![N, C]⟩ : Shape).Idx → M) :
    ∑ i, g i = ∑ t : Fin A, ∑ j : (⟨2, ![B, C]⟩ : Shape).Idx,
      g (ix2 ⟨B * t.val + (j 0).val, hN ▸ band_row_lt t.isLt (j 0).isLt⟩ (j 1)) := by
  subst hN
  rw [sum_idx2, ← Equiv.sum_comp finProdFinEquiv, Fintype.sum_prod_type]
  refine Finset.sum_congr rfl fun t _ => ?_
  rw [sum_idx2]
  refine Finset.sum_congr rfl fun r _ => Finset.sum_congr rfl fun l _ => ?_
  refine congrArg g ?_
  refine congrArg (fun p => ix2 p l) (Fin.ext ?_)
  show (finProdFinEquiv (t, r)).val = B * t.val + r.val
  simp only [finProdFinEquiv_apply_val]
  exact Nat.add_comm _ _

/-- The left-nested running sum `(…((z + b 0) + b 1) + …) + b n` over the first points of a finite range. -/
def running {N : ℕ} (z : M) (b : Fin N → M) : (n : ℕ) → n < N → M
  | 0, h => z + b ⟨0, h⟩
  | n + 1, h => running z b n (Nat.lt_of_succ_lt h) + b ⟨n + 1, h⟩

/-- The running sum after point `n` is the start value plus the sum over the points up to `n`. -/
theorem running_eq {N : ℕ} (z : M) (b : Fin N → M) : ∀ (n : ℕ) (h : n < N),
    running z b n h = z + ∑ t ∈ Finset.univ.filter (fun t : Fin N => t.val ≤ n), b t
  | 0, h => by
    have e : Finset.univ.filter (fun t : Fin N => t.val ≤ 0) = {⟨0, h⟩} := by
      ext t; simp only [Finset.mem_filter, Finset.mem_univ, true_and, Finset.mem_singleton, Nat.le_zero]
      exact ⟨fun ht => Fin.ext ht, fun ht => by rw [ht]⟩
    rw [running, e, Finset.sum_singleton]
  | n + 1, h => by
    have e : Finset.univ.filter (fun t : Fin N => t.val ≤ n + 1)
        = insert ⟨n + 1, h⟩ (Finset.univ.filter (fun t : Fin N => t.val ≤ n)) := by
      ext t; simp only [Finset.mem_filter, Finset.mem_univ, true_and, Finset.mem_insert]
      constructor
      · intro ht
        rcases Nat.lt_or_ge n t.val with h1 | h1
        · exact Or.inl (Fin.ext (by dsimp only; omega))
        · exact Or.inr h1
      · rintro (rfl | ht)
        · exact Nat.le_refl _
        · exact Nat.le_succ_of_le ht
    have hni : (⟨n + 1, h⟩ : Fin N) ∉ Finset.univ.filter (fun t : Fin N => t.val ≤ n) := by
      simp only [Finset.mem_filter, Finset.mem_univ, true_and]; exact Nat.not_succ_le_self n
    rw [running, running_eq z b n, e, Finset.sum_insert hni, add_assoc,
      add_comm (b ⟨n + 1, h⟩)]

/-- After the last point the running sum is the start value plus the sum over every point. -/
theorem running_last {N : ℕ} (z : M) (b : Fin N → M) (n : ℕ) (h : n < N) (hl : n + 1 = N) :
    running z b n h = z + ∑ t : Fin N, b t := by
  rw [running_eq]
  congr 2
  exact Finset.filter_true_of_mem fun t _ => by have := t.isLt; omega

end Cert.SumBlocks
-- ==== Proof.Loss.lean ====
/-
  The weighted squared error of a masked low-rank model, as a sum over all (user, item) pairs, and the same sum
  taken tile by tile.

  For a user table `U` (4096 × 32), an item table `V` (8192 × 32), a mask `K`, observed values `Y` and weights `W`
  (each 4096 × 8192) the entry at pair `(R, C)` is
      W (R, C) · ( (⟨U R, V C⟩ · K (R, C) − Y (R, C))² ),
  and the loss is the sum of the entries over all pairs. The pairs are cut into an 8 × 8 grid of tiles of 512 users
  by 1024 items, numbered row-major: tile `t` holds the users `512·(t / 8) + r`, `r < 512`, and the items
  `1024·(t % 8) + l`, `l < 1024`. Addition on the extended reals is commutative and associative, so the loss is the sum
  over the 64 tiles of each tile's sum, and a running total that starts at a stored zero and adds the tiles' sums one
  after the other ends at zero plus the loss. No finiteness of the entries is used.
-/
import proofs.«122611_j71854802862666_1_alg».proof.Proof.LibTiles2D
import proofs.«122611_j71854802862666_1_alg».proof.Proof.LibSumBands
import Idealize.ShloMosaic.Lib.ValueIdx
import Mathlib.Data.EReal.Basic

noncomputable section

open scoped BigOperators

namespace Cert.Loss

open Idealize.ShloMosaic Idealize.ShloMosaic.ValueIdx

/-- One entry of the weighted squared error from the two rows it reads, the mask value `k`, the observed value `y`
    and the weight `w`: `w · ((⟨u, v⟩ · k − y)²)`. -/
def entry (u v : Fin 32 → EReal) (k y w : EReal) : EReal :=
  w * (((∑ q : Fin 32, u q * v q) * k - y) * ((∑ q : Fin 32, u q * v q) * k - y))

/-- The user (row) that tile `t` of a 64-tile grid reads at its row `r`. -/
def rowAt {N : ℕ} (hN : N = 64) (t : Fin N) (r : Fin 512) : Fin 4096 :=
  ⟨512 * (t.val / 8) + r.val, by have := t.isLt; have := r.isLt; omega⟩

/-- The item (column) that tile `t` of a 64-tile grid reads at its column `l`. -/
def colAt {N : ℕ} (hN : N = 64) (t : Fin N) (l : Fin 1024) : Fin 8192 :=
  ⟨1024 * (t.val % 8) + l.val, by have := t.isLt; have := l.isLt; omega⟩

/-- The sum of any function of the pairs is the sum over the 64 tiles of its sums over each tile's pairs. -/
theorem sum_pairs_eq_tiles {N : ℕ} (hN : N = 64) (g : (⟨2, ![4096, 8192]⟩ : Shape).Idx → EReal) :
    ∑ j, g j = ∑ t : Fin N, ∑ r : Fin 512, ∑ l : Fin 1024, g (ix2 (rowAt hN t r) (colAt hN t l)) := by
  subst hN
  exact Cert.LibTiles2D.sum_tiles 8 512 8 1024 rfl rfl g

/-- A running total over the tiles, started from `z` at the first tile, ends at `z` plus the sum over all pairs. -/
theorem running_tiles {N : ℕ} (hN : N = 64) (z : EReal) (g : (⟨2, ![4096, 8192]⟩ : Shape).Idx → EReal)
    (h : 63 < N) :
    Cert.SumBlocks.running z (fun t : Fin N => ∑ r : Fin 512, ∑ l : Fin 1024, g (ix2 (rowAt hN t r) (colAt hN t l))) 63 h
      = z + ∑ j, g j := by
  rw [Cert.SumBlocks.running_last z _ 63 h (by omega), sum_pairs_eq_tiles hN g]

end Cert.Loss

end
-- ==== Proof.TileValue.lean ====
/-
  One grid point's share of the weighted squared error, as a number.

  At a grid point the body holds a 512 × 32 block `x0` of the user table, a 1024 × 32 block `x1` of the item
  table, and 512 × 1024 blocks `x2` (the integer mask), `x3` (the observed values) and `x4` (the weights). It forms
  the 512 × 1024 product `x0 · x1ᵀ` (the item block is transposed first, so the product contracts the 32 columns of
  both), multiplies it entry by entry with the mask read as a number, subtracts the observed value, squares, multiplies
  by the weight, and adds everything up: first along each row, then down the column of row sums. What it stores is the
  accumulator it loaded plus that one number.

  Over the extended reals the rounding of the two blocks to a shorter format before the product is the identity, the
  product into a zero accumulator is the plain sum of products, and each of the two reductions is the plain sum over
  its axis. So the number is
      ∑ r < 512, ∑ l < 1024,  x4 (r, l) · ( ((∑ q < 32, x0 (r, q) · x1 (l, q)) · mask (r, l) − x3 (r, l))² ).
-/
import proofs.«122611_j71854802862666_1_alg».proof.Proof.Gen.KernelIdeal.Skeleton
import proofs.«122611_j71854802862666_1_alg».proof.Proof.LibPlainDotSum
import proofs.«122611_j71854802862666_1_alg».proof.Proof.LibRowSum
import proofs.«122611_j71854802862666_1_alg».proof.Proof.LibKeepdims
import proofs.«122611_j71854802862666_1_alg».proof.Proof.Loss
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TileValue

open Idealize.ShloMosaic Idealize.ShloMosaic.ValueIdx Cert.KernelIdeal Cert.KernelIdeal.Gen Cert.Loss

variable {F : FTy → Type} [FloatOps F]

/-- The 1 × 1 value a grid point adds to the accumulator: the body's arithmetic on its five input blocks, up to the
    two reductions and the cast of their result to 1 × 1. -/
def tileSum (v5 : Vec F S512x32 .f32) (v7 : Vec F S1024x32 .f32) (v11 : Vec F S512x1024 .i32)
    (v14 : Vec F S512x1024 .f32) (v17 : Vec F S512x1024 .f32) : FVec F S1x1 .f32 :=
  have v6 : FVec F S512x32 .bf16 := truncf .bf16 v5 bitsLt_bf16_f32
  have v8 : FVec F S1024x32 .bf16 := truncf .bf16 v7 bitsLt_bf16_f32
  have v9 : FVec F S32x1024 .bf16 := transpose S32x1024 [1, 0] v8 transposes_S1024x32_p1_0_S32x1024
  have cst : FVec F S512x1024 .f32 := constant S512x1024 .f32 0x00000000#32
  have v10 : FVec F S512x1024 .f32 := matmul dot_S512x32_S32x1024_S512x1024_1_0_0_1_n_n none v6 v9 cst
  have v12 : FVec F S512x1024 .f32 := sitofp .f32 v11
  have v13 : FVec F S512x1024 .f32 := mulf v10 v12
  have v15 : FVec F S512x1024 .f32 := subf v13 v14
  have v16 : FVec F S512x1024 .f32 := mulf v15 v15
  have v18 : FVec F S512x1024 .f32 := mulf v17 v16
  have v19 : FVec F S512 .f32 := multiReduction .add [1] S512 v18 0x00000000#32 reduces_S512x1024_S512 (.inl rfl) rfl
  have v20 : FVec F S512x1 .f32 := shapeCast S512x1 v19 shapeCasts_S512_S512x1
  have v21 : FVec F S1 .f32 := multiReduction .add [0] S1 v20 0x00000000#32 reduces_S512x1_S1 (.inl rfl) rfl
  shapeCast S1x1 v21 shapeCasts_S1_S1x1

/-- The stored value is the loaded accumulator plus the point's share (a cast of a 1 × 1 array to its own shape is
    the identity). -/
theorem pay2_eq (v5 : Vec F S512x32 .f32) (v7 : Vec F S1024x32 .f32) (v11 : Vec F S512x1024 .i32)
    (v14 : Vec F S512x1024 .f32) (v17 : Vec F S512x1024 .f32) (v23 : Vec F S1x1 .f32) :
    k0_pay2 v5 v7 v11 v14 v17 v23 = addf v23 (tileSum v5 v7 v11 v14 v17) := by
  unfold k0_pay2 tileSum
  simp only [shapeCast_self]

/-- A column sum of a one-column matrix: the reduction over axis 0 of a `[n, 1]` array into a `[1]` array is the sum of
    the column's entries. -/
theorem colSum_apply {n : ℕ} (src : FVec Ideal (⟨2, ![n, 1]⟩ : Shape) .f32) (acc : BitVec (FTy.f32).bits)
    (h : (⟨2, ![n, 1]⟩ : Shape).Reduces [0] (⟨1, ![1]⟩ : Shape)) (hφ : FKind.Formats .f32)
    (hacc : acc = FKind.add.neutral .f32 hφ) :
    multiReduction .add [0] (⟨1, ![1]⟩ : Shape) src acc h hφ hacc (ix1 (0 : Fin 1)) = ∑ r : Fin n, src (ix2 r (0 : Fin 1)) := by
  refine (Ideal.multiReduction_add_single src acc h hφ hacc (ix1 (0 : Fin 1))).trans ?_
  refine Finset.sum_congr rfl fun r _ => congrArg src (funext fun d => Fin.ext ?_)
  match d with
  | ⟨0, _⟩ => rfl
  | ⟨1, _⟩ => rfl

/-- THE POINT'S SHARE over the extended reals: the double sum, over the block's rows and columns, of the entries. -/
theorem tileSum_apply (x0 : Vec Ideal S512x32 .f32) (x1 : Vec Ideal S1024x32 .f32) (x2 : Vec Ideal S512x1024 .i32)
    (x3 : Vec Ideal S512x1024 .f32) (x4 : Vec Ideal S512x1024 .f32) :
    tileSum (F := Ideal) x0 x1 x2 x3 x4 (ix2 (0 : Fin 1) (0 : Fin 1))
      = ∑ r : Fin 512, ∑ l : Fin 1024,
          entry (fun q => x0 (ix2 r q)) (fun q => x1 (ix2 l q)) (FloatOps.sitofp (F := Ideal) .f32 (x2 (ix2 r l))) (x3 (ix2 r l)) (x4 (ix2 r l)) := by
  unfold tileSum
  refine (shapeCast_apply _ shapeCasts_S1_S1x1 (ix2 (0 : Fin 1) (0 : Fin 1)) (ix1 (0 : Fin 1)) (by
    rw [Shape.rowMajor_val_two, Shape.rowMajor_val_one]; rfl)).trans ?_
  refine (colSum_apply _ _ reduces_S512x1_S1 _ _).trans ?_
  refine Finset.sum_congr rfl fun r _ => ?_
  refine (Cert.Lib.Keepdims.shapeCast_a_a1_apply _ shapeCasts_S512_S512x1 r (0 : Fin 1)).trans ?_
  refine (Cert.Lib.RowSum.multiReduction_add_row_apply _ _ reduces_S512x1024_S512 _ _ r).trans ?_
  refine Finset.sum_congr rfl fun l _ => ?_
  have hdot : matmul dot_S512x32_S32x1024_S512x1024_1_0_0_1_n_n none (truncf (F := Ideal) .bf16 x0 bitsLt_bf16_f32)
      (transpose S32x1024 [1, 0] (truncf (F := Ideal) .bf16 x1 bitsLt_bf16_f32) transposes_S1024x32_p1_0_S32x1024)
      (constant S512x1024 .f32 0x00000000#32) (ix2 r l) = ∑ q : Fin 32, x0 (ix2 r q) * x1 (ix2 l q) := by
    refine (Cert.LibPlainDotSum.matmul_zero_apply dot_S512x32_S32x1024_S512x1024_1_0_0_1_n_n rfl rfl rfl rfl rfl rfl none _ _ r l).trans ?_
    refine Finset.sum_congr rfl fun q _ => ?_
    rw [transpose_ix2_apply]
    rfl
  show FloatOps.mulf (x4 (ix2 r l)) (FloatOps.mulf (FloatOps.subf (FloatOps.mulf _ (FloatOps.sitofp (F := Ideal) .f32 (x2 (ix2 r l)))) (x3 (ix2 r l)))
    (FloatOps.subf (FloatOps.mulf _ (FloatOps.sitofp (F := Ideal) .f32 (x2 (ix2 r l)))) (x3 (ix2 r l)))) = _
  rw [hdot]
  rfl

end Cert.KernelIdeal.TileValue

end
-- ==== Proof.KernelValue.lean ====
/-
  What the kernel's program leaves in its result, read off its run.

  The output block of the one pallas_call is a single 1 × 1 cell whose index never moves over the 8 × 8 grid: it is
  reset to zero at the first grid point, every point adds its tile's share to it, and it is written back to the array
  once, after the last point. So the array ends holding the running total
      (…((0 + s₀) + s₁) + …) + s₆₃
  of the 64 tiles' shares, in grid order. The host lines after the call cast that cell to a scalar and add to it one
  tenth of the region term, a function of the user table and the region indices alone — the very function the
  reference program applies to the same two arguments, which is therefore carried here as one unopened term.
-/
import proofs.«122611_j71854802862666_1_alg».proof.Proof.Gen.KernelIdeal.Frame
import proofs.«122611_j71854802862666_1_alg».proof.Proof.RefRead
import proofs.«122611_j71854802862666_1_alg».proof.Proof.TileValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.TileValue

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The zero cell the first grid point stores before it accumulates. -/
abbrev zero : Vec F S1x1 .f32 := broadcast S1x1 (Scalar.ofBits .f32 0x00000000#32)

/-- At a point that is not the first, the body leaves in the output cell, which held `xo`, `xo` plus the point's
    share: the value of its one covering store, whose loads read the whole staging buffers. -/
theorem out_B (c : Dev nD) (i : grid0.Coords) (a2 : Memref sig .tc .vmem S512x32 .f32) (h2 : a2.IsWhole)
    (a3 : Memref sig .tc .vmem S1024x32 .f32) (h3 : a3.IsWhole) (a4 : Memref sig .tc .vmem S512x1024 .i32) (h4 : a4.IsWhole)
    (a5 : Memref sig .tc .vmem S512x1024 .f32) (h5 : a5.IsWhole) (a6 : Memref sig .tc .vmem S512x1024 .f32) (h6 : a6.IsWhole)
    (a7 : Memref sig .tc .vmem S1x1 .f32) (h7 : a7.IsWhole) (hc : ¬cond0_0 i)
    (x0 : Vec F S512x32 .f32) (x1 : Vec F S1024x32 .f32) (x2 : Vec F S512x1024 .i32) (x3 : Vec F S512x1024 .f32)
    (x4 : Vec F S512x1024 .f32) (xo : Vec F S1x1 .f32) :
    out0_B_5 c i a2 h2 a3 h3 a4 h4 a5 h5 a6 h6 a7 h7 hc x0 x1 x2 x3 x4 xo = addf xo (tileSum x0 x1 x2 x3 x4) := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz, pay2_eq]
  simp only [View.readAt_eq_ld, h2.read_unread, h3.read_unread, h4.read_unread, h5.read_unread, h6.read_unread, h7.read_unread,
    View.ld_unit_zero (S := S512x32) hz, View.ld_unit_zero (S := S1024x32) hz, View.ld_unit_zero (S := S512x1024) hz,
    View.ld_unit_zero (S := S1x1) hz]

/-- At the first point the body stores the zero cell, reads it back, and leaves zero plus the point's share. -/
theorem out_A (c : Dev nD) (i : grid0.Coords) (a2 : Memref sig .tc .vmem S512x32 .f32) (h2 : a2.IsWhole)
    (a3 : Memref sig .tc .vmem S1024x32 .f32) (h3 : a3.IsWhole) (a4 : Memref sig .tc .vmem S512x1024 .i32) (h4 : a4.IsWhole)
    (a5 : Memref sig .tc .vmem S512x1024 .f32) (h5 : a5.IsWhole) (a6 : Memref sig .tc .vmem S512x1024 .f32) (h6 : a6.IsWhole)
    (a7 : Memref sig .tc .vmem S1x1 .f32) (h7 : a7.IsWhole) (hc : cond0_0 i)
    (x0 : Vec F S512x32 .f32) (x1 : Vec F S1024x32 .f32) (x2 : Vec F S512x1024 .i32) (x3 : Vec F S512x1024 .f32)
    (x4 : Vec F S512x1024 .f32) :
    out0_A_5 c i a2 h2 a3 h3 a4 h4 a5 h5 a6 h6 a7 h7 hc x0 x1 x2 x3 x4 = addf zero (tileSum x0 x1 x2 x3 x4) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1) hz, View.readCov_unit_zero (S := S1x1) _ hz, pay2_eq]
  simp only [View.readAt_eq_ld, h2.read_unread, h3.read_unread, h4.read_unread, h5.read_unread, h6.read_unread, h7.read_unread,
    View.ld_unit_zero (S := S512x32) hz, View.ld_unit_zero (S := S1024x32) hz, View.ld_unit_zero (S := S512x1024) hz,
    View.ld_unit_zero (S := S1x1) hz]
  rfl

/-! ## The running total -/

/-- The share of the total that grid point `t` adds: the body's arithmetic on the point's five input blocks. -/
abbrev share (c : Dev nD) (t : Fin cfg0.N) : Vec F S1x1 .f32 :=
  tileSum (iblk m c 0 t) (iblk m c 1 t) (iblk m c 2 t) (iblk m c 3 t) (iblk m c 4 t)

/-- The running total after point `n`: zero plus the first share, then one more share per point. -/
def chain (c : Dev nD) : (n : ℕ) → n < cfg0.N → Vec F S1x1 .f32
  | 0, h => addf zero (share m c ⟨0, h⟩)
  | n + 1, h => addf (chain c n (Nat.lt_of_succ_lt h)) (share m c ⟨n + 1, h⟩)

/-- What the output's staging cell holds after point `n` is the running total, by induction on the point. -/
theorem outsAt_eq (c : Dev nD) : ∀ (n : ℕ) (h : n < cfg0.N), outsAt0 m c n h = chain m c n h
  | 0, h => (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩))
  | n + 1, h => by
    have hN : cfg0.N = 64 := N_0
    have hB : ¬(⟨n + 1, h⟩ : Fin cfg0.N).val % 64 = 0 := by dsimp only; omega
    refine (outsAt0_B m c ⟨n + 1, h⟩ hB).trans ((out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun h' => hB ((hcond0_0 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) _).trans ?_)
    show addf (outsAt0 m c n _) _ = addf (chain m c n _) _
    rw [outsAt_eq c n]

/-- The last grid point. -/
def tLast : Fin cfg0.N := ⟨63, by rw [show cfg0.N = 64 from N_0]; decide⟩

/-- The result cell: the running total after the last point, as contents of the call's result array. -/
abbrev result (c : Dev nD) : Buf (Elt F) ((c : Thread nD τ).loc main_v0) := chain m c 63 tLast.isLt

/-- The one write-back, after the last point, writes the running total: the block at index (0, 0) of the 1 × 1 array
    is the array. -/
theorem flushed_eq (c : Dev nD) (t : Fin cfg0.N) (hf : (cfg0.win 5).flush t = true) :
    (dats m 0 c).flushed 5 t = ((cfg0.win 5).blk t).view.read (Elt F) (result m c) := by
  have hN : cfg0.N = 64 := N_0
  have h63 : t.val = 63 := by have := (flush0_5 t).mp hf; have := t.isLt; omega
  obtain rfl : t = tLast := Fin.ext h63
  show (cfg0.win 5).cut (grid0.coords tLast) ((dats m 0 c).after 5 tLast) = _
  rw [after0_5, outsAt_eq]
  have hz' : (fun a => win0_5.index tLast a * main_v0.ty.shape.size a) = fun _ => 0 := funext fun a => by fin_cases a <;> decide +kernel
  exact (Memref.read_access_unit_zero (Elt F) main_v0 hz' (fun a => by rw [congrFun hz' a]; simp) (result m c)).symm

/-- So the result array ends holding the running total after the last point. -/
theorem final_o (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v0).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-! ## The host lines after the call -/

/-- The program's result: the result cell cast to a scalar, plus one tenth of the region term of the user table and
    the region indices — the reference's own term for it (`val_main_v44` of the reference read one operation at a time),
    which the kernel's host lines spell operation for operation. -/
theorem tail_eq (c : Dev nD) :
    Pipeline.afterTail₀ cfgs (dats m) 0 (V0 m) [hostOps1, hostOps1_1, hostOps1_2] c main_v39
      = addf (shapeCast S_ (result m c) shapeCasts_S1x1_S_)
          (Cert.ReferenceIdeal.ReadP.val_main_v44 (F := F) (m ((c.tc : Thread nD τ).loc main_arg0)) (m ((c.tc : Thread nD τ).loc main_arg5))) := by
  have e0 : Pipeline.withArrays (cfgs 0).spec c (V0 m c) (fun w => (dats m 0 c).arrAt w (cfgs 0).N) (Proc.devRef .tc main_v0) = result m c :=
    (Pipeline.withArrays_arr spec0 launch0.win.arr_inj c _ _ 5).trans (final_o m c)
  have e1 : Pipeline.withArrays (cfgs 0).spec c (V0 m c) (fun w => (dats m 0 c).arrAt w (cfgs 0).N) (Proc.devRef .tc main_arg0)
      = m ((c.tc : Thread nD τ).loc main_arg0) :=
    (Pipeline.withArrays_arr spec0 launch0.win.arr_inj c _ _ 0).trans (((dats m 0 c).arrAt_in 0 rfl _).trans ((A_eq m c 0).trans (V_main_arg0 m c)))
  have e5 : Pipeline.withArrays (cfgs 0).spec c (V0 m c) (fun w => (dats m 0 c).arrAt w (cfgs 0).N) (Proc.devRef .tc main_arg5)
      = m ((c.tc : Thread nD τ).loc main_arg5) :=
    (Pipeline.withArrays_of_ne _ c (V0 m c) _ main_arg5 (by exact (by decide : ∀ w, Pipeline.arrRef spec0 w ≠ main_arg5))).trans (V_main_arg5 m c)
  unfold Pipeline.afterTail₀
  generalize Pipeline.withArrays (cfgs 0).spec c (V0 m c) (fun w => (dats m 0 c).arrAt w (cfgs 0).N) = W at e0 e1 e5 ⊢
  simp only [hostOps1, hostOps1_1, hostOps1_2, List.flatten_cons, List.flatten_nil, List.append_nil, List.cons_append, List.nil_append]
  after_results_simp
  simp only [StableHlo.TRef.ofBuf, StableHlo.TRef.toBuf, cast_eq]
  rw [e0, e1, e5]
  rfl

/-- The run, read: the program's result at the cast result cell plus the region term, every argument unchanged. -/
theorem run : θ_run defs (onTc (τ := τ) (main (F := F))) ⟨m, fun _ => 0, ρ⟩ fun r => ∀ c : Dev nD,
      r.2.mem ((c.tc : Thread nD τ).loc main_v39)
        = addf (shapeCast S_ (result m c) shapeCasts_S1x1_S_)
            (Cert.ReferenceIdeal.ReadP.val_main_v44 (F := F) (m ((c.tc : Thread nD τ).loc main_arg0)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v39 (Pipeline.mem_restRefs_of main_v39 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

/-! ## The input blocks, read at an entry

Window 0 stages the user table in blocks of 512 rows indexed by the grid's first coordinate, window 1 the item table in
blocks of 1024 rows indexed by the second, windows 2, 3 and 4 the three 4096 × 8192 arrays in 512 × 1024 blocks indexed
by both. Point `t` of the 8 × 8 grid has coordinates `(t / 8, t % 8)`. -/

theorem idx_u : ∀ t : Fin cfg0.N, win0_0.index t 0 = t.val / 8 ∧ win0_0.index t 1 = 0 :=
  (by decide +kernel : ∀ t : Fin grid0.N, win0_0.index t 0 = t.val / 8 ∧ win0_0.index t 1 = 0)
theorem idx_v : ∀ t : Fin cfg0.N, win0_1.index t 0 = t.val % 8 ∧ win0_1.index t 1 = 0 :=
  (by decide +kernel : ∀ t : Fin grid0.N, win0_1.index t 0 = t.val % 8 ∧ win0_1.index t 1 = 0)
theorem idx_k : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem idx_y : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)
theorem idx_w : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)

open Cert.Loss in
/-- The user block at point `t` reads the user table at the tile's row. -/
theorem ublk_apply (c : Dev nD) (t : Fin cfg0.N) (r : Fin 512) (q : Fin 32) :
    (iblk m c 0 t : Vec F S512x32 .f32) (ValueIdx.ix2 r q)
      = (m ((c.tc : Thread nD τ).loc main_arg0) : Vec F S4096x32 .f32) (ValueIdx.ix2 (rowAt N_0 t r) q) := by
  have hi := idx_u t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * (t.val / 8) + r.val; rw [hi.1]; omega
  | ⟨1, _⟩ => show win0_0.index t 1 * 32 + 1 * q.val = q.val; rw [hi.2]; omega

open Cert.Loss in
/-- The item block at point `t` reads the item table at the tile's column. -/
theorem vblk_apply (c : Dev nD) (t : Fin cfg0.N) (l : Fin 1024) (q : Fin 32) :
    (iblk m c 1 t : Vec F S1024x32 .f32) (ValueIdx.ix2 l q)
      = (m ((c.tc : Thread nD τ).loc main_arg1) : Vec F S8192x32 .f32) (ValueIdx.ix2 (colAt N_0 t l) q) := by
  have hi := idx_v t
  unfold iblk
  rw [View.read_apply]
  show V m c main_arg1 _ = m (c.tc.loc main_arg1) _
  unfold V
  congr 1
  funext a
  apply Fin.ext
  match a with
  | ⟨0, _⟩ => show win0_1.index t 0 * 1024 + 1 * l.val = 1024 * (t.val % 8) + l.val; rw [hi.1]; omega
  | ⟨1, _⟩ => show win0_1.index t 1 * 32 + 1 * q.val = q.val; rw [hi.2]; omega

open Cert.Loss in
/-- The mask block at point `t` reads the mask at the tile's row and column. -/
theorem kblk_apply (c : Dev nD) (t : Fin cfg0.N) (r : Fin 512) (l : Fin 1024) :
    (iblk m c 2 t : Vec F S512x1024 .i32) (ValueIdx.ix2 r l)
      = (m ((c.tc : Thread nD τ).loc main_arg2) : Vec F S4096x8192 .i32) (ValueIdx.ix2 (rowAt N_0 t r) (colAt N_0 t l)) := by
  have hi := idx_k t
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * (t.val / 8) + r.val; rw [hi.1]; omega
  | ⟨1, _⟩ => show win0_2.index t 1 * 1024 + 1 * l.val = 1024 * (t.val % 8) + l.val; rw [hi.2]; omega

open Cert.Loss in
/-- The block of observed values at point `t` reads them at the tile's row and column. -/
theorem yblk_apply (c : Dev nD) (t : Fin cfg0.N) (r : Fin 512) (l : Fin 1024) :
    (iblk m c 3 t : Vec F S512x1024 .f32) (ValueIdx.ix2 r l)
      = (m ((c.tc : Thread nD τ).loc main_arg3) : Vec F S4096x8192 .f32) (ValueIdx.ix2 (rowAt N_0 t r) (colAt N_0 t l)) := by
  have hi := idx_y t
  unfold iblk
  rw [View.read_apply]
  show V m c main_arg3 _ = m (c.tc.loc main_arg3) _
  unfold V
  congr 1
  funext a
  apply Fin.ext
  match a with
  | ⟨0, _⟩ => show win0_3.index t 0 * 512 + 1 * r.val = 512 * (t.val / 8) + r.val; rw [hi.1]; omega
  | ⟨1, _⟩ => show win0_3.index t 1 * 1024 + 1 * l.val = 1024 * (t.val % 8) + l.val; rw [hi.2]; omega

open Cert.Loss in
/-- The weight block at point `t` reads the weights at the tile's row and column. -/
theorem wblk_apply (c : Dev nD) (t : Fin cfg0.N) (r : Fin 512) (l : Fin 1024) :
    (iblk m c 4 t : Vec F S512x1024 .f32) (ValueIdx.ix2 r l)
      = (m ((c.tc : Thread nD τ).loc main_arg4) : Vec F S4096x8192 .f32) (ValueIdx.ix2 (rowAt N_0 t r) (colAt N_0 t l)) := by
  have hi := idx_w t
  unfold iblk
  rw [View.read_apply]
  show V m c main_arg4 _ = m (c.tc.loc main_arg4) _
  unfold V
  congr 1
  funext a
  apply Fin.ext
  match a with
  | ⟨0, _⟩ => show win0_4.index t 0 * 512 + 1 * r.val = 512 * (t.val / 8) + r.val; rw [hi.1]; omega
  | ⟨1, _⟩ => show win0_4.index t 1 * 1024 + 1 * l.val = 1024 * (t.val % 8) + l.val; rw [hi.2]; omega

end Cert.KernelIdeal.Acc

end
-- ==== Proof.RefValue.lean ====
/-
  The reference's loss term, entry by entry.

  The reference forms the whole 4096 × 8192 product of the user table with the transposed item table, multiplies it
  entry by entry with the mask read as a number, subtracts the observed values, squares, multiplies by the weights and
  sums everything from a zero. Over the extended reals the product's entry at `(R, C)` is `∑ q, U (R, q) · V (C, q)`,
  so the summand at `(R, C)` is the entry `W · ((⟨U R, V C⟩ · K − Y)²)` of the loss, and the term is zero plus the sum
  of the entries over all pairs.
-/
import proofs.«122611_j71854802862666_1_alg».proof.Proof.RefRead
import proofs.«122611_j71854802862666_1_alg».proof.Proof.Loss
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx Cert.ReferenceIdeal Cert.ReferenceIdeal.ReadP Cert.Loss

/-- The summand of the reference's total at the pair `(R, C)` is the loss entry of that pair. -/
theorem summand_apply (U : (⟨S4096x32, .f32⟩ : BufTy).Contents (Elt Ideal)) (V : (⟨S8192x32, .f32⟩ : BufTy).Contents (Elt Ideal))
    (K : (⟨S4096x8192, .i32⟩ : BufTy).Contents (Elt Ideal)) (Y W : (⟨S4096x8192, .f32⟩ : BufTy).Contents (Elt Ideal))
    (R : Fin 4096) (C : Fin 8192) :
    val_main_v6 (F := Ideal) U V K Y W (ix2 R C)
      = entry (fun q => U (ix2 R q)) (fun q => V (ix2 C q)) (FloatOps.sitofp (F := Ideal) .f32 (K (ix2 R C))) (Y (ix2 R C)) (W (ix2 R C)) := by
  have el : ∀ k : Fin 32, lidx_main_v1 (ix2 R C) k = ix2 R k := fun k => funext fun a => by
    match a with
    | ⟨0, _⟩ => rfl
    | ⟨1, _⟩ => rfl
  have er : ∀ k : Fin 32, idx_main_v0 (ridx_main_v1 (ix2 R C) k) = ix2 C k := fun k => funext fun a => by
    match a with
    | ⟨0, _⟩ => rfl
    | ⟨1, _⟩ => rfl
  rw [val_main_v6_apply, val_main_v5_apply, val_main_v4_apply, val_main_v3_apply, val_main_v2_apply, val_main_v1_apply]
  simp only [val_main_v0_apply, el, er]
  rfl

/-- The reference's loss term is the stored zero plus the sum of its summands over all pairs. -/
theorem loss_apply (U : (⟨S4096x32, .f32⟩ : BufTy).Contents (Elt Ideal)) (V : (⟨S8192x32, .f32⟩ : BufTy).Contents (Elt Ideal))
    (K : (⟨S4096x8192, .i32⟩ : BufTy).Contents (Elt Ideal)) (Y W : (⟨S4096x8192, .f32⟩ : BufTy).Contents (Elt Ideal))
    (i : S_.Idx) :
    val_main_v7 (F := Ideal) U V K Y W i
      = Ideal.ofBits .f32 0x00000000#32 + ∑ j : S4096x8192.Idx, val_main_v6 (F := Ideal) U V K Y W j :=
  val_main_v7_apply U V K Y W i

end Cert.ReferenceIdeal.RefValue

end
-- ==== Proof.Bridge.lean ====
/-
  The kernel's running total is the reference's loss term.

  Over the extended reals the share of grid point `t` is the sum, over the 512 × 1024 pairs of tile `t`, of the loss
  entries of those pairs — the kernel reads them from its blocks, which are the arguments' rows `512·(t / 8) + r` and
  columns `1024·(t % 8) + l` —, and the reference's summand at a pair is the same entry. The kernel's result cell is the
  running total of the shares from a stored zero, the reference's term the stored zero plus the sum of the summands over
  all pairs; the 64 tiles partition the pairs, and sums of extended reals may be regrouped, so the two are equal.
-/
import proofs.«122611_j71854802862666_1_alg».proof.Proof.KernelValue
import proofs.«122611_j71854802862666_1_alg».proof.Proof.RefValue
import proofs.«122611_j71854802862666_1_alg».proof.Proof.Loss

set_option maxRecDepth 16384

noncomputable section

open scoped BigOperators

namespace Cert.KernelIdeal.Bridge

open Idealize.ShloMosaic Idealize.ShloMosaic.TcCoe Idealize.ShloMosaic.ValueIdx Idealize.SL.Sem
open Cert.KernelIdeal Cert.KernelIdeal.Gen Cert.KernelIdeal.Acc Cert.KernelIdeal.TileValue Cert.Loss

variable (m : (ℓ : Loc nD τ sig) → Buf (Elt Ideal) ℓ)

/-- The reference's summand, as a function of the pair, on core `c`'s five float and mask arguments. -/
abbrev summand (c : Dev nD) : (⟨2, ![4096, 8192]⟩ : Shape).Idx → EReal :=
  Cert.ReferenceIdeal.ReadP.val_main_v6 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The share of grid point `t` is the sum of the reference's summands over the pairs of tile `t`. -/
theorem share_apply (c : Dev nD) (t : Fin cfg0.N) :
    share m c t (ix2 (0 : Fin 1) (0 : Fin 1))
      = ∑ r : Fin 512, ∑ l : Fin 1024, summand m c (ix2 (rowAt N_0 t r) (colAt N_0 t l)) := by
  refine (tileSum_apply _ _ _ _ _).trans ?_
  refine Finset.sum_congr rfl fun r _ => Finset.sum_congr rfl fun l _ => ?_
  refine Eq.trans ?_ (Cert.ReferenceIdeal.RefValue.summand_apply _ _ _ _ _ (rowAt N_0 t r) (colAt N_0 t l)).symm
  have hu : (fun q : Fin 32 => (iblk m c 0 t : Vec Ideal S512x32 .f32) (ix2 r q))
      = fun q => (m ((c.tc : Thread nD τ).loc main_arg0) : Vec Ideal S4096x32 .f32) (ix2 (rowAt N_0 t r) q) :=
    funext fun q => ublk_apply m c t r q
  have hv : (fun q : Fin 32 => (iblk m c 1 t : Vec Ideal S1024x32 .f32) (ix2 l q))
      = fun q => (m ((c.tc : Thread nD τ).loc main_arg1) : Vec Ideal S8192x32 .f32) (ix2 (colAt N_0 t l) q) :=
    funext fun q => vblk_apply m c t l q
  exact congr (congr (congr (congr (congrArg entry hu) hv)
    (congrArg (FloatOps.sitofp (F := Ideal) .f32) (kblk_apply m c t r l))) (yblk_apply m c t r l)) (wblk_apply m c t r l)

/-- The running total after point `n`, at its one entry, is the left-nested sum of the shares from the stored zero. -/
theorem chain_apply (c : Dev nD) : ∀ (n : ℕ) (h : n < cfg0.N),
    chain m c n h (ix2 (0 : Fin 1) (0 : Fin 1))
      = Cert.SumBlocks.running (Ideal.ofBits .f32 0x00000000#32) (fun t : Fin cfg0.N => share m c t (ix2 (0 : Fin 1) (0 : Fin 1))) n h
  | 0, h => rfl
  | n + 1, h => by
    show chain m c n _ (ix2 (0 : Fin 1) (0 : Fin 1)) + share m c ⟨n + 1, h⟩ (ix2 (0 : Fin 1) (0 : Fin 1)) = _
    rw [chain_apply c n]
    rfl

/-- THE BRIDGE: the kernel's result cell, cast to a scalar, is the reference's loss term of the same arguments. -/
theorem result_scalar (c : Dev nD) :
    shapeCast S_ (result m c) shapeCasts_S1x1_S_
      = Cert.ReferenceIdeal.ReadP.val_main_v7 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain rfl := eq_ix0 i
  rw [Cert.ReferenceIdeal.RefValue.loss_apply]
  refine (shapeCast_apply _ shapeCasts_S1x1_S_ ix0 (ix2 (0 : Fin 1) (0 : Fin 1)) rfl).trans ?_
  show chain m c 63 _ (ix2 (0 : Fin 1) (0 : Fin 1)) = _
  refine (chain_apply m c 63 _).trans ?_
  rw [show (fun t : Fin cfg0.N => share m c t (ix2 (0 : Fin 1) (0 : Fin 1))) = _ from funext (share_apply m c)]
  exact running_tiles N_0 _ (summand m c) _

end Cert.KernelIdeal.Bridge

end
-- ==== Proof.lean ====
/-
  A masked low-rank loss: the sum over all (user, item) pairs of `w · ((⟨u, v⟩ · mask − y)²)`, plus one tenth of a
  region term of the user table and the region indices.

  The kernel takes the pair sum tile by tile over an 8 × 8 grid, 512 users by 1024 items at a time, into one cell that
  is zeroed at the first grid point and written back after the last; the reference takes it in one sum over all pairs
  from a zero. Over the extended reals both are the stored zero plus the same sum, regrouped (addition is commutative
  and associative; no finiteness is used, so the precondition is never opened): `Bridge.result_scalar`. The region
  term is computed by the same host operations on the same two arguments in both programs, and is carried as one
  function that is never opened. The kernel rounds its two blocks to a shorter float format before the product, which
  is the identity over the extended reals; the idealization rewrote nothing, so `preserves` is `True`.
-/
import proofs.«122611_j71854802862666_1_alg».proof.Defs
import proofs.«122611_j71854802862666_1_alg».proof.Proof.Gen.Kernel
import proofs.«122611_j71854802862666_1_alg».proof.Proof.Gen.Kernel.Skeleton
import proofs.«122611_j71854802862666_1_alg».proof.Proof.Gen.Kernel.Launch
import proofs.«122611_j71854802862666_1_alg».proof.Proof.Gen.Kernel.Points
import proofs.«122611_j71854802862666_1_alg».proof.Proof.Gen.Kernel.Frame
import proofs.«122611_j71854802862666_1_alg».proof.Proof.Gen.KernelIdeal
import proofs.«122611_j71854802862666_1_alg».proof.Proof.Gen.KernelIdeal.Skeleton
import proofs.«122611_j71854802862666_1_alg».proof.Proof.Gen.KernelIdeal.Launch
import proofs.«122611_j71854802862666_1_alg».proof.Proof.Gen.KernelIdeal.Points
import proofs.«122611_j71854802862666_1_alg».proof.Proof.Gen.KernelIdeal.Frame
import proofs.«122611_j71854802862666_1_alg».proof.Proof.Gen.ReferenceIdeal
import proofs.«122611_j71854802862666_1_alg».proof.Proof.Gen.Pre_finite_inputs
import proofs.«122611_j71854802862666_1_alg».proof.Proof.RefRun
import proofs.«122611_j71854802862666_1_alg».proof.Proof.RefRead
import proofs.«122611_j71854802862666_1_alg».proof.Proof.KernelValue
import proofs.«122611_j71854802862666_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its frame run. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with their result at the loss term plus the region term of arguments that agree: the kernel's
    result cell cast to a scalar is the reference's loss term (`Bridge.result_scalar`), and the region term is one
    function of the user table and the region indices on both sides. -/
theorem algebraic : Cert.algebraic_KernelIdeal_ReferenceIdeal := by
  intro m ρ m' ρ' _ hagree
  refine ⟨_, Cert.KernelIdeal.Acc.run (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v45_eq (F := Ideal) _ _ _ _ _ _).trans ?_
  rw [(hagree c).1, (hagree c).2.1, (hagree c).2.2.1, (hagree c).2.2.2.1, (hagree c).2.2.2.2.1, (hagree c).2.2.2.2.2]
  unfold Cert.ReferenceIdeal.ReadP.val_main_v45
  rw [Cert.KernelIdeal.Bridge.result_scalar m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
